-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  main_v53

def fn_part2 {F : FTy → Type} [FloatOps F] (main_arg8 : FVec F S128 .f32) (main_arg9 : FVec F S64x128 .f32) (main_arg10 : FVec F S64 .f32) (main_arg11 : FVec F S64x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S64x128 .f32) (main_arg10 : FVec F S64 .f32) (main_arg11 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S64x128 .f32) (main_arg10 : FVec F S64 .f32) (main_arg11 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S128x64 : Shape := ⟨2, ![128, 64]⟩
abbrev S1x64 : Shape := ⟨2, ![1, 64]⟩
abbrev S100000x64 : Shape := ⟨2, ![100000, 64]⟩
abbrev S4000x64 : Shape := ⟨2, ![4000, 64]⟩

abbrev nBuf : Space → Nat
  | .hbm => 61
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S100000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S128x64, .f32⟩
  | .hbm, ⟨58, _⟩ => ⟨S128x64, .f32⟩
  | .hbm, ⟨59, _⟩ => ⟨S1x64, .f32⟩
  | .hbm, ⟨60, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x1, .f32⟩
  | .local _ .vmem, ⟨20, _⟩ => ⟨S4000x1, .f32⟩
  | .local _ .vmem, ⟨21, _⟩ => ⟨S128x64, .f32⟩
  | .local _ .vmem, ⟨22, _⟩ => ⟨S1x64, .f32⟩
  | .local _ .vmem, ⟨23, _⟩ => ⟨S128x64, .f32⟩
  | .local _ .vmem, ⟨24, _⟩ => ⟨S4000x64, .f32⟩
  | .local _ .vmem, ⟨25, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S100000x128.size a
  hwx0_10 : ∀ i : grid0.Coords, EltTy.bits .f32 = 32 ∨ (Rect.block (s := S100000x128) S4000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v26) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S128x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S128x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S_, .f32⟩
  | .hbm, ⟨82, _⟩ => ⟨S1600000, .f32⟩
  | .hbm, ⟨83, _⟩ => ⟨S_, .f32⟩
  | .hbm, ⟨84, _⟩ => ⟨S100000, .f32⟩
  | .hbm, ⟨85, _⟩ => ⟨S1600000x1, .i32⟩
  | .hbm, ⟨86, _⟩ => ⟨S100000, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S128x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S128x64, .f32⟩
  | .hbm, ⟨99, _⟩ => ⟨S100000x64, .f32⟩
  | .hbm, ⟨100, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_c_5 : Ref sig .tc := ⟨.hbm, 68, rfl⟩
abbrev main_v47 : Ref sig .tc := ⟨.hbm, 69, rfl⟩
abbrev main_v48 : Ref sig .tc := ⟨.hbm, 70, rfl⟩
abbrev main_c_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Chain.lean ====
/-
  The irregular step both programs leave to the host, carried as ONE function.

  Every edge carries its source node's feature row to its destination node, where the rows are summed; a node's
  count is the number of edges that end in it. Which rows meet where depends on the edge array alone. Both programs
  compute this with the same sequence of host operations, so nothing here opens it: it is named once, as a function
  of the node features and the edge array, and the two programs are compared on what they feed it.
-/
import proofs.«152005_j30889404793605_1_alg».proof.Proof.Gen.ReferenceIdeal.Read

noncomputable section

namespace Cert.Sage.Chain

open Idealize.ShloMosaic Cert.ReferenceIdeal Cert.ReferenceIdeal.Read

variable {F : FTy → Type} [FloatOps F]

/-- The summed messages: the rows of `h` gathered along the edges' sources (a negative source index counted from the
    end) and added into zeros at the edges' destinations. -/
def aggOf (h : (⟨S100000x128, .f32⟩ : BufTy).Contents (Elt F)) (e : (⟨S2x1600000, .i32⟩ : BufTy).Contents (Elt F)) : (⟨S100000x128, .f32⟩ : BufTy).Contents (Elt F) :=
  Host.scatterAdd scatter_S100000x128_S1600000x1_S1600000x128_1_0_0_1 (val_main_v11 (F := F)) (val_main_v12 (F := F) e)
    (Host.gather gather_S100000x128_S1600000x1_S1600000x128_1_0_n_n_0_1_1128 h (val_main_v9 (F := F) e))

/-- The message counts: ones added into zeros at the edges' destinations. -/
def cntOf (e : (⟨S2x1600000, .i32⟩ : BufTy).Contents (Elt F)) : (⟨S100000, .f32⟩ : BufTy).Contents (Elt F) := val_main_v17 (F := F) e

/-- The first aggregation of the reference is the summed messages of the input features. -/
theorem v13_eq (x0 : (⟨S100000x128, .f32⟩ : BufTy).Contents (Elt F)) (x1 : (⟨S2x1600000, .i32⟩ : BufTy).Contents (Elt F)) :
    val_main_v13 (F := F) x0 x1 = aggOf x0 x1 := rfl

/-- The second aggregation of the reference is the summed messages of the hidden features: the same operations on the
    same edge array. -/
theorem v56_eq (x0 : (⟨S100000x128, .f32⟩ : BufTy).Contents (Elt F)) (x1 : (⟨S2x1600000, .i32⟩ : BufTy).Contents (Elt F)) (x2 : (⟨S128x128, .f32⟩ : BufTy).Contents (Elt F))
    (x3 : (⟨S128, .f32⟩ : BufTy).Contents (Elt F)) (x4 : (⟨S128x128, .f32⟩ : BufTy).Contents (Elt F)) (x5 x6 x7 x8 : (⟨S128, .f32⟩ : BufTy).Contents (Elt F)) :
    val_main_v56 (F := F) x0 x1 x2 x3 x4 x5 x6 x7 x8 = aggOf (val_main_v46 (F := F) x0 x1 x2 x3 x4 x5 x6 x7 x8) x1 := rfl

/-- The reference counts the messages twice, by the same operations. -/
theorem v60_eq (x1 : (⟨S2x1600000, .i32⟩ : BufTy).Contents (Elt F)) : val_main_v60 (F := F) x1 = cntOf x1 := rfl

end Cert.Sage.Chain

end
-- ==== Proof.HostK.lean ====
/-
  The kernel program's host stretches: what each region finds in the buffers it reads.

  Before the first region the host slices the edge array into sources and destinations, counts the messages per node,
  gathers and sums the input features along the edges, transposes the first layer's two weight matrices and views its
  five vectors as rows. Between the regions it gathers and sums the first region's output along the same edges,
  transposes the second layer's weights and views its bias as a row. Each buffer a region reads is therefore a named
  function of the argument arrays — the summed messages and the counts being the ones both programs share.
-/
import proofs.«152005_j30889404793605_1_alg».proof.Proof.Gen.KernelIdeal.Frame
import proofs.«152005_j30889404793605_1_alg».proof.Proof.Chain
import Idealize.ShloMosaic.Lib.StableHlo.Run

set_option maxRecDepth 16384

noncomputable section

namespace Cert.Sage.HostK

open Idealize.ShloMosaic Idealize.ShloMosaic.TcCoe Idealize.SL.Sem Idealize.ShloMosaic.StableHlo
open Cert.KernelIdeal Cert.KernelIdeal.Gen
open Cert.Sage.Chain

variable {F : FTy → Type} [FloatOps F]
variable (m : (ℓ : Loc nD τ sig) → Buf (Elt F) ℓ) (ρ : Dev nD → PrngReg)

/-! ## Before the first region -/

theorem feat_eq (c : Dev nD) : V1 m ρ c main_arg0 = m ((c : Thread nD τ).loc main_arg0) := by
  show StableHlo.after hostOps0 (W0 m ρ c) (Proc.devRef .tc main_arg0) = _
  after_results

set_option maxHeartbeats 4000000 in
theorem agg_eq (c : Dev nD) :
    V1 m ρ c main_v18 = aggOf (F := F) (m ((c : Thread nD τ).loc main_arg0)) (m ((c : Thread nD τ).loc main_arg1)) := by
  show StableHlo.after hostOps0 (W0 m ρ c) (Proc.devRef .tc main_v18) = _
  after_results
  rfl

set_option maxHeartbeats 4000000 in
theorem cnt_eq (c : Dev nD) :
    V1 m ρ c main_v8 = shapeCast Cert.KernelIdeal.S100000x1 (cntOf (F := F) (m ((c : Thread nD τ).loc main_arg1))) shapeCasts_S100000_S100000x1 := by
  show StableHlo.after hostOps0 (W0 m ρ c) (Proc.devRef .tc main_v8) = _
  after_results
  rfl

set_option maxHeartbeats 4000000 in
theorem wl_eq (c : Dev nD) : V1 m ρ c main_v19 = Cert.ReferenceIdeal.Read.val_main_v23 (F := F) (m ((c : Thread nD τ).loc main_arg2)) := by
  show StableHlo.after hostOps0 (W0 m ρ c) (Proc.devRef .tc main_v19) = _
  after_results
  rfl

set_option maxHeartbeats 4000000 in
theorem wr_eq (c : Dev nD) : V1 m ρ c main_v20 = Cert.ReferenceIdeal.Read.val_main_v28 (F := F) (m ((c : Thread nD τ).loc main_arg4)) := by
  show StableHlo.after hostOps0 (W0 m ρ c) (Proc.devRef .tc main_v20) = _
  after_results
  rfl

set_option maxHeartbeats 4000000 in
theorem bias_eq (c : Dev nD) : V1 m ρ c main_v21 = shapeCast Cert.KernelIdeal.S1x128 (m ((c : Thread nD τ).loc main_arg3)) shapeCasts_S128_S1x128 := by
  show StableHlo.after hostOps0 (W0 m ρ c) (Proc.devRef .tc main_v21) = _
  after_results
  rfl

set_option maxHeartbeats 4000000 in
/-- The scale vector reaches the first region viewed as one row. -/
theorem scale_eq (c : Dev nD) :
    V1 m ρ c main_v22 = shapeCast Cert.KernelIdeal.S1x128 (m ((c : Thread nD τ).loc main_arg5)) shapeCasts_S128_S1x128 := by
  show StableHlo.after hostOps0 (W0 m ρ c) (Proc.devRef .tc main_v22) = _
  after_results
  rfl

set_option maxHeartbeats 4000000 in
/-- The shift vector, likewise. -/
theorem shift_eq (c : Dev nD) :
    V1 m ρ c main_v23 = shapeCast Cert.KernelIdeal.S1x128 (m ((c : Thread nD τ).loc main_arg6)) shapeCasts_S128_S1x128 := by
  show StableHlo.after hostOps0 (W0 m ρ c) (Proc.devRef .tc main_v23) = _
  after_results
  rfl

set_option maxHeartbeats 4000000 in
/-- The running mean, likewise. -/
theorem mean_eq (c : Dev nD) :
    V1 m ρ c main_v24 = shapeCast Cert.KernelIdeal.S1x128 (m ((c : Thread nD τ).loc main_arg7)) shapeCasts_S128_S1x128 := by
  show StableHlo.after hostOps0 (W0 m ρ c) (Proc.devRef .tc main_v24) = _
  after_results
  rfl

set_option maxHeartbeats 4000000 in
/-- The running variance, likewise. -/
theorem var_eq (c : Dev nD) :
    V1 m ρ c main_v25 = shapeCast Cert.KernelIdeal.S1x128 (m ((c : Thread nD τ).loc main_arg8)) shapeCasts_S128_S1x128 := by
  show StableHlo.after hostOps0 (W0 m ρ c) (Proc.devRef .tc main_v25) = _
  after_results
  rfl

/-! ## Through the first region: a buffer the region does not own keeps its contents; an input array keeps them too; the
    output array holds what the region's write-backs leave -/

set_option maxHeartbeats 4000000 in
theorem src_kept (c : Dev nD) :
    W2 m ρ c (Proc.devRef .tc main_v1) = Cert.ReferenceIdeal.Read.val_main_v1 (F := F) (m ((c : Thread nD τ).loc main_arg1)) :=
  (W2_of_ne m ρ c main_v1 (by decide)).trans (by
    show StableHlo.after hostOps0 (W0 m ρ c) (Proc.devRef .tc main_v1) = _
    after_results
    rfl)

set_option maxHeartbeats 4000000 in
theorem dst_kept (c : Dev nD) :
    W2 m ρ c (Proc.devRef .tc main_v3) = Cert.ReferenceIdeal.Read.val_main_v3 (F := F) (m ((c : Thread nD τ).loc main_arg1)) :=
  (W2_of_ne m ρ c main_v3 (by decide)).trans (by
    show StableHlo.after hostOps0 (W0 m ρ c) (Proc.devRef .tc main_v3) = _
    after_results
    rfl)

theorem arg9_kept (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)

theorem arg10_kept (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)

theorem arg11_kept (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results)

/-- The counts are an input array of the first region: it leaves them as it found them. -/
theorem cnt_kept (c : Dev nD) : W2 m ρ c (Proc.devRef .tc main_v8) = V1 m ρ c main_v8 :=
  (W2_arr m ρ c 2).trans (((dat0 (V1 m ρ) c).arrAt_in 2 rfl _).trans (A_eq0 (V1 m ρ) c 2))

/-- The hidden features are the first region's output array. -/
theorem hid_out (c : Dev nD) : W2 m ρ c (Proc.devRef .tc main_v26) = (dat0 (V1 m ρ) c).arrAt 10 cfg0.N :=
  W2_arr m ρ c 10

/-! ## Before the second region -/

theorem hid_found (c : Dev nD) : V3 m ρ c main_v26 = W2 m ρ c (Proc.devRef .tc main_v26) := by
  show StableHlo.after hostOps1 (W2 m ρ c) (Proc.devRef .tc main_v26) = _
  after_results

theorem cnt_found (c : Dev nD) : V3 m ρ c main_v8 = W2 m ρ c (Proc.devRef .tc main_v8) := by
  show StableHlo.after hostOps1 (W2 m ρ c) (Proc.devRef .tc main_v8) = _
  after_results

set_option maxHeartbeats 4000000 in
/-- The second aggregation: the shared function of the first region's output and the edge array. -/
theorem agg_found (c : Dev nD) :
    V3 m ρ c main_v36 = aggOf (F := F) (W2 m ρ c (Proc.devRef .tc main_v26)) (m ((c : Thread nD τ).loc main_arg1)) := by
  show StableHlo.after hostOps1 (W2 m ρ c) (Proc.devRef .tc main_v36) = _
  after_results
  rw [src_kept, dst_kept]
  rfl

set_option maxHeartbeats 4000000 in
theorem wl_found (c : Dev nD) : V3 m ρ c main_v37 = Cert.ReferenceIdeal.Read.val_main_v66 (F := F) (m ((c : Thread nD τ).loc main_arg9)) := by
  show StableHlo.after hostOps1 (W2 m ρ c) (Proc.devRef .tc main_v37) = _
  after_results
  rw [arg9_kept]
  rfl

set_option maxHeartbeats 4000000 in
theorem wr_found (c : Dev nD) : V3 m ρ c main_v38 = Cert.ReferenceIdeal.Read.val_main_v71 (F := F) (m ((c : Thread nD τ).loc main_arg11)) := by
  show StableHlo.after hostOps1 (W2 m ρ c) (Proc.devRef .tc main_v38) = _
  after_results
  rw [arg11_kept]
  rfl

set_option maxHeartbeats 4000000 in
theorem bias_found (c : Dev nD) : V3 m ρ c main_v39 = shapeCast Cert.KernelIdeal.S1x64 (m ((c : Thread nD τ).loc main_arg10)) shapeCasts_S64_S1x64 := by
  show StableHlo.after hostOps1 (W2 m ρ c) (Proc.devRef .tc main_v39) = _
  after_results
  rw [arg10_kept]
  rfl

end Cert.Sage.HostK

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.Spec.lean ====
/-
  The mathematics of one mean-aggregating graph convolution, on the extended reals.

  A node's row of the output is a function of three things only: the node's own feature row, the node's row of
  the summed messages, and the node's message count. The summed messages are divided by the count (or by one,
  when the node received nothing), and the two rows each meet a weight matrix along the shared feature axis; a
  bias is added along the rows. Between the two convolutions every entry is normalised with per-column
  statistics, scaled, shifted and cut off below at zero.

  The two programs differ in the ORDER in which the three summands of an output entry are added: products of
  the mean first and the bias last, or the bias in the middle. Addition on the extended reals is commutative
  and associative, with no side condition, so the two orders agree everywhere, infinities included.
-/
import Idealize.ShloMosaic.PureOps.Ideal
import Idealize.ShloMosaic.Lib.ValueIdx

noncomputable section

open scoped BigOperators

namespace Cert.Sage

open Idealize.ShloMosaic Idealize.ShloMosaic.ValueIdx

/-- A rank-two shape of given extents. -/
abbrev Mat (a b : Nat) : Shape := ⟨2, ![a, b]⟩

/-- The float one, as its word. -/
abbrev one : EReal := Ideal.ofBits .f32 0x3F800000#32

/-- The small constant added to a variance before the inverse square root, as its word. -/
abbrev eps : EReal := Ideal.ofBits .f32 0x3727C5AC#32

/-- One output entry of the convolution, column `j` of a node: the node's summed-message row divided by its
    clamped count, against column `j` of the first weight matrix; plus the node's own row against column `j` of the
    second; plus the bias of column `j`. -/
def convRow {K O : Nat} (xr aggr : Fin K → EReal) (cnt : EReal) (wl wr : (Mat K O).Idx → EReal)
    (b : (Mat 1 O).Idx → EReal) (j : Fin O) : EReal :=
  ((∑ k : Fin K, Ideal.div (aggr k) (max cnt one) * wl (ix2 k j)) + ∑ k : Fin K, xr k * wr (ix2 k j))
    + b (ix2 (0 : Fin 1) j)

/-- The same entry with the bias added before the node's own products. -/
def convRow' {K O : Nat} (xr aggr : Fin K → EReal) (cnt : EReal) (wl wr : (Mat K O).Idx → EReal)
    (b : (Mat 1 O).Idx → EReal) (j : Fin O) : EReal :=
  ((∑ k : Fin K, Ideal.div (aggr k) (max cnt one) * wl (ix2 k j)) + b (ix2 (0 : Fin 1) j))
    + ∑ k : Fin K, xr k * wr (ix2 k j)

/-- The two orders of the three summands agree: addition of extended reals is commutative and associative. -/
theorem convRow'_eq {K O : Nat} (xr aggr : Fin K → EReal) (cnt : EReal) (wl wr : (Mat K O).Idx → EReal)
    (b : (Mat 1 O).Idx → EReal) (j : Fin O) :
    convRow' xr aggr cnt wl wr b j = convRow xr aggr cnt wl wr b j := by
  unfold convRow convRow'
  exact add_right_comm _ _ _

/-- The convolution of whole arrays: row `i 0`, column `i 1`. -/
def conv {N K O : Nat} (x agg : (Mat N K).Idx → EReal) (cnt : (Mat N 1).Idx → EReal)
    (wl wr : (Mat K O).Idx → EReal) (b : (Mat 1 O).Idx → EReal) : (Mat N O).Idx → EReal :=
  fun i => convRow (fun k => x (ix2 (i 0) k)) (fun k => agg (ix2 (i 0) k)) (cnt (ix2 (i 0) (0 : Fin 1))) wl wr b (i 1)

/-- Normalisation by per-column statistics, scale, shift, and the cut-off below at zero, of one entry. -/
def normRelu (h mean var scale shift : EReal) : EReal :=
  max ((((h - mean) * Ideal.rsqrt (var + eps)) * scale) + shift) (Ideal.ofBits .f32 0x00000000#32)

/-- The first layer of whole arrays: the convolution, then the normalisation with the statistics, scale and shift
    of the entry's column. -/
def layer1 {N K O : Nat} (x agg : (Mat N K).Idx → EReal) (cnt : (Mat N 1).Idx → EReal)
    (wl wr : (Mat K O).Idx → EReal) (b scale shift mean var : (Mat 1 O).Idx → EReal) : (Mat N O).Idx → EReal :=
  fun i => normRelu (conv x agg cnt wl wr b i) (mean (ix2 (0 : Fin 1) (i 1))) (var (ix2 (0 : Fin 1) (i 1)))
    (scale (ix2 (0 : Fin 1) (i 1))) (shift (ix2 (0 : Fin 1) (i 1)))

end Cert.Sage

end
-- ==== Proof.Pay.lean ====
/-
  What each kernel body stores, read at one entry of its block.

  Both bodies form, for every node of the block, the node's summed messages divided by its clamped count, take that
  row and the node's own row against the two weight blocks along the feature axis, and add the bias row. The
  narrowing of the operands to sixteen-bit floats before the products is the identity on the extended reals, so the
  entry is exactly the convolution's. The first body goes on to normalise, scale, shift and cut off at zero with the
  statistics of the entry's column.
-/
import proofs.«152005_j30889404793605_1_alg».proof.Proof.Gen.KernelIdeal.Skeleton
import proofs.«152005_j30889404793605_1_alg».proof.Proof.LibPlainDot
import proofs.«152005_j30889404793605_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Sage.Pay

open Idealize.ShloMosaic Idealize.ShloMosaic.ValueIdx Cert.KernelIdeal Cert.KernelIdeal.Gen

/-- A rows-by-columns product accumulated into zeros, read at entry `(p, j)`, whatever float formats the two
    operands are held in: the sum over the shared axis of the row's entries times the column's. -/
theorem matmul_entry {M K N : Nat} {φ₁ φ₂ : FTy} (D : DotDims (Mat M K) (Mat K N) (Mat M N))
    (hr : D.contr.rank = 1) (hs : D.contr.size ⟨0, by omega⟩ = K)
    (hl0 : ∀ (i : (Mat M N).Idx) (q : D.contr.Idx), (D.lhsIdx i q 0).val = (i 0).val)
    (hl1 : ∀ (i : (Mat M N).Idx) (q : D.contr.Idx), (D.lhsIdx i q 1).val = (q ⟨0, by omega⟩).val)
    (hr0 : ∀ (i : (Mat M N).Idx) (q : D.contr.Idx), (D.rhsIdx i q 0).val = (q ⟨0, by omega⟩).val)
    (hr1 : ∀ (i : (Mat M N).Idx) (q : D.contr.Idx), (D.rhsIdx i q 1).val = (i 1).val)
    (prec : Option ContractPrecision) (l : FVec Ideal (Mat M K) φ₁) (r : FVec Ideal (Mat K N) φ₂) (p : Fin M) (j : Fin N) :
    FloatOps.matmul D prec l r (constant (F := Ideal) (Mat M N) .f32 0x00000000#32) (ix2 p j)
      = ∑ k : Fin K, (l (ix2 p k) : EReal) * (r (ix2 k j) : EReal) := by
  rw [Ideal.matmul_constant_zero_apply]
  exact Cert.LibPlainDot.sum_plain D hr hs hl0 hl1 hr0 hr1 l r p j

/-! ## The two products' dimension numbers, axis by axis: the left operand is read at the entry's row and the
    contracted coordinate, the right at the contracted coordinate and the entry's column -/

theorem lhs_hid_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_hid_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_hid_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_hid_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

theorem lhs_out_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs_out_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhs_out_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhs_out_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-! ## The mean of a node's messages, at one entry -/

/-- The summed messages over the clamped count broadcast along the row: at `(p, k)` the quotient of the entry by the
    larger of the node's count and one. -/
theorem mean_entry (agg : Vec Ideal S4000x128 .f32) (cnt : Vec Ideal S4000x1 .f32) (p : Fin 4000) (k : Fin 128) :
    divf (F := Ideal) agg (broadcastTo S4000x128 (maximumf (F := Ideal) cnt (broadcast S4000x1 (Scalar.ofBits (F := Ideal) .f32 0x3F800000#32))) broadcasts_S4000x1_S4000x128) (ix2 p k)
      = Ideal.div (agg (ix2 p k)) (max (cnt (ix2 p (0 : Fin 1))) one) := by
  rw [divf_apply, Cert.LibPlainDot.broadcastTo_a1_ab_apply]
  rfl

/-! ## The second body's store -/

/-- The second body's stored value at `(p, j)` is the convolution's entry of node `p`, column `j`. -/
theorem layer2_entry (h agg : Vec Ideal S4000x128 .f32) (cnt : Vec Ideal S4000x1 .f32) (wl wr : Vec Ideal S128x64 .f32)
    (b : Vec Ideal S1x64 .f32) (p : Fin 4000) (j : Fin 64) :
    k1_pay1 (F := Ideal) h agg cnt wl wr b (ix2 p j)
      = convRow (fun k => h (ix2 p k)) (fun k => agg (ix2 p k)) (cnt (ix2 p (0 : Fin 1))) wl wr b j := by
  unfold k1_pay1 convRow
  simp only [shapeCast_self]
  rw [addf_apply, addf_apply, broadcastTo_1b_ab_apply]
  simp only [matmul]
  rw [matmul_entry _ rfl rfl lhs_out_0 lhs_out_1 rhs_out_0 rhs_out_1, matmul_entry _ rfl rfl lhs_out_0 lhs_out_1 rhs_out_0 rhs_out_1]
  refine congrArg₂ (· + ·) (congrArg₂ (· + ·) (Finset.sum_congr rfl fun k _ => ?_) rfl) rfl
  rw [truncf_apply, mean_entry]
  rfl

/-! ## The first body's store -/

/-- The first body's stored value at `(p, j)`: the convolution's entry of node `p`, column `j`, normalised with
    column `j`'s statistics, scaled, shifted, and cut off below at zero. -/
theorem layer1_entry (x agg : Vec Ideal S4000x128 .f32) (cnt : Vec Ideal S4000x1 .f32) (wl wr : Vec Ideal S128x128 .f32)
    (b var mean scale shift : Vec Ideal S1x128 .f32) (p : Fin 4000) (j : Fin 128) :
    k0_pay1 (F := Ideal) (k0_pay2 (F := Ideal) x agg cnt wl wr b var mean) (k0_pay3 (F := Ideal) scale) shift (ix2 p j)
      = normRelu (convRow (fun k => x (ix2 p k)) (fun k => agg (ix2 p k)) (cnt (ix2 p (0 : Fin 1))) wl wr b j)
          (mean (ix2 (0 : Fin 1) j)) (var (ix2 (0 : Fin 1) j)) (scale (ix2 (0 : Fin 1) j)) (shift (ix2 (0 : Fin 1) j)) := by
  unfold k0_pay1 k0_pay2 k0_pay3 normRelu convRow
  simp only [shapeCast_self]
  rw [maximumf_apply, addf_apply, mulf_apply, mulf_apply, subf_apply, addf_apply, addf_apply]
  simp only [broadcastTo_1b_ab_apply, matmul]
  rw [matmul_entry _ rfl rfl lhs_hid_0 lhs_hid_1 rhs_hid_0 rhs_hid_1, matmul_entry _ rfl rfl lhs_hid_0 lhs_hid_1 rhs_hid_0 rhs_hid_1]
  have hm : ∀ k : Fin 128, (truncf .bf16 (divf (F := Ideal) agg (broadcastTo S4000x128 (maximumf (F := Ideal) cnt (broadcast S4000x1 (Scalar.ofBits (F := Ideal) .f32 0x3F800000#32))) broadcasts_S4000x1_S4000x128)) bitsLt_bf16_f32 : FVec Ideal S4000x128 .bf16) (ix2 p k)
      = Ideal.div (agg (ix2 p k)) (max (cnt (ix2 p (0 : Fin 1))) one) := fun k => by
    rw [truncf_apply, mean_entry]
  simp only [hm]
  rfl

end Cert.Sage.Pay

end
-- ==== Proof.Region0.lean ====
/-
  The first region, from whatever contents it is entered with: its output array after the run.

  As in the second region the grid's 25 points each take 4000 consecutive nodes: point `t` fetches rows
  `4000·t … 4000·t + 3999` of the node features, of the summed messages and of the counts, and the two weight matrices,
  the bias row and the four rows of per-column statistics, scale and shift whole; it writes the same rows of the output.
  What a point writes back is the first layer of the WHOLE arrays restricted to its rows, the row ranges tile the
  output, and the output array ends as the first layer of the arrays the region found.
-/
import proofs.«152005_j30889404793605_1_alg».proof.Proof.Gen.KernelIdeal.Frame
import proofs.«152005_j30889404793605_1_alg».proof.Proof.Pay

set_option maxRecDepth 16384

noncomputable section

namespace Cert.Sage.Region0

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Sage.Pay

variable (V : (c : Dev nD) → (b : Ref sig .tc) → Buf (Elt Ideal) ((c : Thread nD τ).loc b))

/-- The arrays the region finds, at their literal types: the node features, the summed messages, the counts, the two
    weight matrices (already transposed), the bias row, and the rows of scale, shift, running mean and running variance. -/
abbrev feat (c : Dev nD) : Vec Ideal S100000x128 .f32 := V c main_arg0
abbrev agg (c : Dev nD) : Vec Ideal S100000x128 .f32 := V c main_v18
abbrev cnt (c : Dev nD) : Vec Ideal S100000x1 .f32 := V c main_v8
abbrev wl (c : Dev nD) : Vec Ideal S128x128 .f32 := V c main_v19
abbrev bias (c : Dev nD) : Vec Ideal S1x128 .f32 := V c main_v21
abbrev wr (c : Dev nD) : Vec Ideal S128x128 .f32 := V c main_v20
abbrev scale (c : Dev nD) : Vec Ideal S1x128 .f32 := V c main_v22
abbrev shift (c : Dev nD) : Vec Ideal S1x128 .f32 := V c main_v23
abbrev mean (c : Dev nD) : Vec Ideal S1x128 .f32 := V c main_v24
abbrev var (c : Dev nD) : Vec Ideal S1x128 .f32 := V c main_v25

/-- The first layer of those arrays. -/
abbrev result (c : Dev nD) : Vec Ideal S100000x128 .f32 :=
  layer1 (feat V c) (agg V c) (cnt V c) (wl V c) (wr V c) (bias V c) (scale V c) (shift V c) (mean V c) (var V c)

theorem hz : (![0, 0] : Fin 2 → Nat) = fun _ => 0 := funext fun a => by fin_cases a <;> rfl

/-! The index maps, decided over the grid: the row-blocked windows sit at block row `t`, block column 0; the whole
    windows at block (0, 0). -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)

/-- Row `4000·t + p` of the arrays, as an index of the node axis. -/
abbrev row (t : Fin cfg0.N) (p : Fin 4000) : Fin 100000 := ⟨t.val * 4000 + p.val, by
  have ht : t.val < 25 := t.isLt
  have hp : p.val < 4000 := p.isLt
  omega⟩

theorem read_feat (c : Dev nD) (t : Fin cfg0.N) (p : Fin 4000) (k : Fin 128) :
    iblk0 V c 0 t (ix2 p k) = feat V c (ix2 (row t p) k) := by
  show V c main_arg0 (((cfg0.win 0).blk t).view.emb (ix2 p k)) = V c main_arg0 (ix2 (row t p) k)
  refine congrArg (V c main_arg0) (funext fun a => Fin.ext ?_)
  obtain ⟨e0, e1⟩ := idx0 t
  match a with
  | ⟨0, _⟩ => show win0_0.index t (0 : Fin 2) * 4000 + 1 * p.val = t.val * 4000 + p.val; omega
  | ⟨1, _⟩ => show win0_0.index t (1 : Fin 2) * 128 + 1 * k.val = k.val; omega

theorem read_agg (c : Dev nD) (t : Fin cfg0.N) (p : Fin 4000) (k : Fin 128) :
    iblk0 V c 1 t (ix2 p k) = agg V c (ix2 (row t p) k) := by
  show V c main_v18 (((cfg0.win 1).blk t).view.emb (ix2 p k)) = V c main_v18 (ix2 (row t p) k)
  refine congrArg (V c main_v18) (funext fun a => Fin.ext ?_)
  obtain ⟨e0, e1⟩ := idx1 t
  match a with
  | ⟨0, _⟩ => show win0_1.index t (0 : Fin 2) * 4000 + 1 * p.val = t.val * 4000 + p.val; omega
  | ⟨1, _⟩ => show win0_1.index t (1 : Fin 2) * 128 + 1 * k.val = k.val; omega

theorem read_cnt (c : Dev nD) (t : Fin cfg0.N) (p : Fin 4000) :
    iblk0 V c 2 t (ix2 p (0 : Fin 1)) = cnt V c (ix2 (row t p) (0 : Fin 1)) := by
  show V c main_v8 (((cfg0.win 2).blk t).view.emb (ix2 p (0 : Fin 1))) = V c main_v8 (ix2 (row t p) (0 : Fin 1))
  refine congrArg (V c main_v8) (funext fun a => Fin.ext ?_)
  obtain ⟨e0, e1⟩ := idx2 t
  match a with
  | ⟨0, _⟩ => show win0_2.index t (0 : Fin 2) * 4000 + 1 * p.val = t.val * 4000 + p.val; omega
  | ⟨1, _⟩ => show win0_2.index t (1 : Fin 2) * 1 + 1 * 0 = 0; omega

theorem read_wl (c : Dev nD) (t : Fin cfg0.N) : iblk0 V c 3 t = wl V c := by
  funext y
  show V c main_v19 (((cfg0.win 3).blk t).view.emb y) = V c main_v19 y
  refine congrArg (V c main_v19) (funext fun a => Fin.ext ?_)
  obtain ⟨e0, e1⟩ := idx3 t
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem read_bias (c : Dev nD) (t : Fin cfg0.N) : iblk0 V c 4 t = bias V c := by
  funext y
  show V c main_v21 (((cfg0.win 4).blk t).view.emb y) = V c main_v21 y
  refine congrArg (V c main_v21) (funext fun a => Fin.ext ?_)
  obtain ⟨e0, e1⟩ := idx4 t
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem read_wr (c : Dev nD) (t : Fin cfg0.N) : iblk0 V c 5 t = wr V c := by
  funext y
  show V c main_v20 (((cfg0.win 5).blk t).view.emb y) = V c main_v20 y
  refine congrArg (V c main_v20) (funext fun a => Fin.ext ?_)
  obtain ⟨e0, e1⟩ := idx5 t
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem read_scale (c : Dev nD) (t : Fin cfg0.N) : iblk0 V c 6 t = scale V c := by
  funext y
  show V c main_v22 (((cfg0.win 6).blk t).view.emb y) = V c main_v22 y
  refine congrArg (V c main_v22) (funext fun a => Fin.ext ?_)
  obtain ⟨e0, e1⟩ := idx6 t
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem read_shift (c : Dev nD) (t : Fin cfg0.N) : iblk0 V c 7 t = shift V c := by
  funext y
  show V c main_v23 (((cfg0.win 7).blk t).view.emb y) = V c main_v23 y
  refine congrArg (V c main_v23) (funext fun a => Fin.ext ?_)
  obtain ⟨e0, e1⟩ := idx7 t
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem read_mean (c : Dev nD) (t : Fin cfg0.N) : iblk0 V c 8 t = mean V c := by
  funext y
  show V c main_v24 (((cfg0.win 8).blk t).view.emb y) = V c main_v24 y
  refine congrArg (V c main_v24) (funext fun a => Fin.ext ?_)
  obtain ⟨e0, e1⟩ := idx8 t
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem read_var (c : Dev nD) (t : Fin cfg0.N) : iblk0 V c 9 t = var V c := by
  funext y
  show V c main_v25 (((cfg0.win 9).blk t).view.emb y) = V c main_v25 y
  refine congrArg (V c main_v25) (funext fun a => Fin.ext ?_)
  obtain ⟨e0, e1⟩ := idx9 t
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Where entry `(p, j)` of point `t`'s output block lies in the output array: row `4000·t + p`, column `j`. -/
theorem emb_out (t : Fin cfg0.N) (p : Fin 4000) (j : Fin 128) :
    ((cfg0.win 10).blk t).view.emb (ix2 p j) = ix2 (row t p) j := by
  refine funext fun a => Fin.ext ?_
  obtain ⟨e0, e1⟩ := idx10 t
  match a with
  | ⟨0, _⟩ => show win0_10.index t (0 : Fin 2) * 4000 + 1 * p.val = t.val * 4000 + p.val; omega
  | ⟨1, _⟩ => show win0_10.index t (1 : Fin 2) * 128 + 1 * j.val = j.val; omega

/-- What point `t` writes back is its rows of the first layer of the whole arrays. -/
theorem flushed_eq (c : Dev nD) (t : Fin cfg0.N) :
    (dat0 V c).flushed 10 t = ((cfg0.win 10).blk t).view.read (Elt Ideal) (result V c) := by
  show (cfg0.win 10).cut (grid0.coords t) ((dat0 V c).after 10 t) = _
  rw [after0_10]
  unfold out0_10
  rw [View.canon_unit_zero hz]
  simp only [View.ld_unit_zero (S := S4000x128) hz, View.ld_unit_zero (S := S4000x1) hz,
    View.ld_unit_zero (S := S128x128) hz, View.ld_unit_zero (S := S1x128) hz]
  funext y
  obtain ⟨p, j, rfl⟩ : ∃ (p : Fin 4000) (j : Fin 128), y = ix2 p j := ⟨y 0, y 1, eq_ix2 y⟩
  show k0_pay1 (F := Ideal) (k0_pay2 (F := Ideal) (iblk0 V c 0 t) (iblk0 V c 1 t) (iblk0 V c 2 t) (iblk0 V c 3 t) (iblk0 V c 5 t) (iblk0 V c 4 t) (iblk0 V c 9 t) (iblk0 V c 8 t)) (k0_pay3 (F := Ideal) (iblk0 V c 6 t)) (iblk0 V c 7 t) (ix2 p j)
    = result V c (((cfg0.win 10).blk t).view.emb (ix2 p j))
  rw [layer1_entry, emb_out, read_wl, read_wr, read_bias, read_scale, read_shift, read_mean, read_var, read_cnt]
  simp only [read_feat, read_agg]
  rfl

/-- An index of the output array is in point `t`'s block iff each coordinate is in the block's range on its axis. -/
theorem mem_blk (t : Fin cfg0.N) (i : S100000x128.Idx) :
    i ∈ ((cfg0.win 10).blk t).view.set ↔ ∀ a : Fin 2, win0_10.index t a * S4000x128.size a ≤ (i a).val ∧ (i a).val < win0_10.index t a * S4000x128.size a + S4000x128.size a := by
  show i ∈ ((View.whole main_v26).slice (win0_10.rect t)).set ↔ _
  rw [View.set_slice_whole, Rect.mem_set_unit]
  exact Iff.rfl

/-- Every node's row is in the block of the point that takes its 4000-row range. -/
theorem cover (i : S100000x128.Idx) : ∃ t : Fin cfg0.N, (cfg0.win 10).flush t = true ∧ i ∈ ((cfg0.win 10).blk t).view.set := by
  have hi0 : (i 0).val < 100000 := (i 0).isLt
  have hi1 : (i 1).val < 128 := (i 1).isLt
  have hq : (i 0).val / 4000 < 25 := by omega
  refine ⟨⟨(i 0).val / 4000, hq⟩, flush0_10 _, ?_⟩
  rw [mem_blk]
  obtain ⟨e0, e1⟩ := idx10 ⟨(i 0).val / 4000, hq⟩
  intro a
  match a with
  | ⟨0, _⟩ =>
    show win0_10.index ⟨(i 0).val / 4000, hq⟩ (0 : Fin 2) * 4000 ≤ (i 0).val ∧ (i 0).val < win0_10.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win0_10.index ⟨(i 0).val / 4000, hq⟩ (1 : Fin 2) * 128 ≤ (i 1).val ∧ (i 1).val < win0_10.index ⟨(i 0).val / 4000, hq⟩ (1 : Fin 2) * 128 + 128
    rw [e1]; omega

/-- THE OUTPUT ARRAY after the region: the first layer of the arrays the region found. -/
theorem arr (c : Dev nD) : (dat0 V c).arrAt 10 cfg0.N = result V c :=
  (dat0 V c).arrAt_eq_of_cover 10 (result V c) (fun t _ => flushed_eq V c t) cover

end Cert.Sage.Region0

end
-- ==== Proof.Region1.lean ====
/-
  The second region, from whatever contents it is entered with: its output array after the run.

  The grid's 25 points each take 4000 consecutive nodes: point `t` fetches rows `4000·t … 4000·t + 3999` of the node
  features, of the summed messages and of the counts, and the two weight matrices and the bias whole; it writes the same
  rows of the output. So what a point writes back is the convolution of the WHOLE arrays restricted to its rows, the
  points' row ranges tile the output, and the output array ends as the convolution of the arrays the region found.
-/
import proofs.«152005_j30889404793605_1_alg».proof.Proof.Gen.KernelIdeal.Frame
import proofs.«152005_j30889404793605_1_alg».proof.Proof.Pay

set_option maxRecDepth 16384

noncomputable section

namespace Cert.Sage.Region1

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Sage.Pay

variable (V : (c : Dev nD) → (b : Ref sig .tc) → Buf (Elt Ideal) ((c : Thread nD τ).loc b))

/-- The arrays the region finds, at their literal types: the hidden features, the summed messages, the counts, the two
    weight matrices (already transposed) and the bias row. -/
abbrev hid (c : Dev nD) : Vec Ideal S100000x128 .f32 := V c main_v26
abbrev agg (c : Dev nD) : Vec Ideal S100000x128 .f32 := V c main_v36
abbrev cnt (c : Dev nD) : Vec Ideal S100000x1 .f32 := V c main_v8
abbrev wl (c : Dev nD) : Vec Ideal S128x64 .f32 := V c main_v37
abbrev bias (c : Dev nD) : Vec Ideal S1x64 .f32 := V c main_v39
abbrev wr (c : Dev nD) : Vec Ideal S128x64 .f32 := V c main_v38

/-- The convolution of those arrays. -/
abbrev result (c : Dev nD) : Vec Ideal S100000x64 .f32 :=
  conv (hid V c) (agg V c) (cnt V c) (wl V c) (wr V c) (bias V c)

theorem hz : (![0, 0] : Fin 2 → Nat) = fun _ => 0 := funext fun a => by fin_cases a <;> rfl

/-- The index maps, decided over the grid: the row-blocked windows sit at block row `t`, block column 0; the whole
    windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `4000·t + p` of the arrays, as an index of the node axis. -/
abbrev row (t : Fin cfg1.N) (p : Fin 4000) : Fin 100000 := ⟨t.val * 4000 + p.val, by
  have ht : t.val < 25 := t.isLt
  have hp : p.val < 4000 := p.isLt
  omega⟩

theorem read_hid (c : Dev nD) (t : Fin cfg1.N) (p : Fin 4000) (k : Fin 128) :
    iblk1 V c 0 t (ix2 p k) = hid V c (ix2 (row t p) k) := by
  show V c main_v26 (((cfg1.win 0).blk t).view.emb (ix2 p k)) = V c main_v26 (ix2 (row t p) k)
  refine congrArg (V c main_v26) (funext fun a => Fin.ext ?_)
  obtain ⟨e0, e1, -⟩ := idx_facts t
  match a with
  | ⟨0, _⟩ => show win1_0.index t (0 : Fin 2) * 4000 + 1 * p.val = t.val * 4000 + p.val; omega
  | ⟨1, _⟩ => show win1_0.index t (1 : Fin 2) * 128 + 1 * k.val = k.val; omega

theorem read_agg (c : Dev nD) (t : Fin cfg1.N) (p : Fin 4000) (k : Fin 128) :
    iblk1 V c 1 t (ix2 p k) = agg V c (ix2 (row t p) k) := by
  show V c main_v36 (((cfg1.win 1).blk t).view.emb (ix2 p k)) = V c main_v36 (ix2 (row t p) k)
  refine congrArg (V c main_v36) (funext fun a => Fin.ext ?_)
  obtain ⟨-, -, e0, e1, -⟩ := idx_facts t
  match a with
  | ⟨0, _⟩ => show win1_1.index t (0 : Fin 2) * 4000 + 1 * p.val = t.val * 4000 + p.val; omega
  | ⟨1, _⟩ => show win1_1.index t (1 : Fin 2) * 128 + 1 * k.val = k.val; omega

theorem read_cnt (c : Dev nD) (t : Fin cfg1.N) (p : Fin 4000) :
    iblk1 V c 2 t (ix2 p (0 : Fin 1)) = cnt V c (ix2 (row t p) (0 : Fin 1)) := by
  show V c main_v8 (((cfg1.win 2).blk t).view.emb (ix2 p (0 : Fin 1))) = V c main_v8 (ix2 (row t p) (0 : Fin 1))
  refine congrArg (V c main_v8) (funext fun a => Fin.ext ?_)
  obtain ⟨-, -, -, -, e0, e1, -⟩ := idx_facts t
  match a with
  | ⟨0, _⟩ => show win1_2.index t (0 : Fin 2) * 4000 + 1 * p.val = t.val * 4000 + p.val; omega
  | ⟨1, _⟩ => show win1_2.index t (1 : Fin 2) * 1 + 1 * 0 = 0; omega

theorem read_wl (c : Dev nD) (t : Fin cfg1.N) : iblk1 V c 3 t = wl V c := by
  funext y
  show V c main_v37 (((cfg1.win 3).blk t).view.emb y) = V c main_v37 y
  refine congrArg (V c main_v37) (funext fun a => Fin.ext ?_)
  obtain ⟨-, -, -, -, -, -, e0, e1, -⟩ := idx_facts t
  match a with
  | ⟨0, _⟩ => show win1_3.index t (0 : Fin 2) * 128 + 1 * (y 0).val = (y 0).val; omega
  | ⟨1, _⟩ => show win1_3.index t (1 : Fin 2) * 64 + 1 * (y 1).val = (y 1).val; omega

theorem read_bias (c : Dev nD) (t : Fin cfg1.N) : iblk1 V c 4 t = bias V c := by
  funext y
  show V c main_v39 (((cfg1.win 4).blk t).view.emb y) = V c main_v39 y
  refine congrArg (V c main_v39) (funext fun a => Fin.ext ?_)
  obtain ⟨-, -, -, -, -, -, -, -, e0, e1, -⟩ := idx_facts t
  match a with
  | ⟨0, _⟩ => show win1_4.index t (0 : Fin 2) * 1 + 1 * (y 0).val = (y 0).val; omega
  | ⟨1, _⟩ => show win1_4.index t (1 : Fin 2) * 64 + 1 * (y 1).val = (y 1).val; omega

theorem read_wr (c : Dev nD) (t : Fin cfg1.N) : iblk1 V c 5 t = wr V c := by
  funext y
  show V c main_v38 (((cfg1.win 5).blk t).view.emb y) = V c main_v38 y
  refine congrArg (V c main_v38) (funext fun a => Fin.ext ?_)
  obtain ⟨-, -, -, -, -, -, -, -, -, -, e0, e1, -⟩ := idx_facts t
  match a with
  | ⟨0, _⟩ => show win1_5.index t (0 : Fin 2) * 128 + 1 * (y 0).val = (y 0).val; omega
  | ⟨1, _⟩ => show win1_5.index t (1 : Fin 2) * 64 + 1 * (y 1).val = (y 1).val; omega

/-- Where entry `(p, j)` of point `t`'s output block lies in the output array: row `4000·t + p`, column `j`. -/
theorem emb_out (t : Fin cfg1.N) (p : Fin 4000) (j : Fin 64) :
    ((cfg1.win 6).blk t).view.emb (ix2 p j) = ix2 (row t p) j := by
  refine funext fun a => Fin.ext ?_
  obtain ⟨-, -, -, -, -, -, -, -, -, -, -, -, e0, e1⟩ := idx_facts t
  match a with
  | ⟨0, _⟩ => show win1_6.index t (0 : Fin 2) * 4000 + 1 * p.val = t.val * 4000 + p.val; omega
  | ⟨1, _⟩ => show win1_6.index t (1 : Fin 2) * 64 + 1 * j.val = j.val; omega

/-- What point `t` writes back is its rows of the convolution of the whole arrays. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S4000x128) hz, View.ld_unit_zero (S := S4000x1) hz,
    View.ld_unit_zero (S := S128x64) hz, View.ld_unit_zero (S := S1x64) hz]
  funext y
  obtain ⟨p, j, rfl⟩ : ∃ (p : Fin 4000) (j : Fin 64), y = ix2 p j := ⟨y 0, y 1, eq_ix2 y⟩
  show k1_pay1 (F := Ideal) (iblk1 V c 0 t) (iblk1 V c 1 t) (iblk1 V c 2 t) (iblk1 V c 3 t) (iblk1 V c 5 t) (iblk1 V c 4 t) (ix2 p j)
    = result V c (((cfg1.win 6).blk t).view.emb (ix2 p j))
  rw [layer2_entry, emb_out, read_wl, read_wr, read_bias, read_cnt]
  simp only [read_hid, read_agg]
  rfl

/-- An index of the output array is in point `t`'s block iff each coordinate is in the block's range on its axis. -/
theorem mem_blk (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v40).slice (win1_6.rect t)).set ↔ _
  rw [View.set_slice_whole, Rect.mem_set_unit]
  exact Iff.rfl

/-- Every node's row is in the block of the point that takes its 4000-row range. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hq : (i 0).val / 4000 < 25 := by omega
  refine ⟨⟨(i 0).val / 4000, hq⟩, flush1_6 _, ?_⟩
  rw [mem_blk]
  obtain ⟨-, -, -, -, -, -, -, -, -, -, -, -, e0, e1⟩ := idx_facts ⟨(i 0).val / 4000, hq⟩
  intro a
  match a with
  | ⟨0, _⟩ =>
    show win1_6.index ⟨(i 0).val / 4000, hq⟩ (0 : Fin 2) * 4000 ≤ (i 0).val ∧ (i 0).val < win1_6.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, hq⟩ (1 : Fin 2) * 64 ≤ (i 1).val ∧ (i 1).val < win1_6.index ⟨(i 0).val / 4000, hq⟩ (1 : Fin 2) * 64 + 64
    rw [e1]; omega

/-- THE OUTPUT ARRAY after the region: the convolution of the arrays the region found. -/
theorem arr (c : Dev nD) : (dat1 V c).arrAt 6 cfg1.N = result V c :=
  (dat1 V c).arrAt_eq_of_cover 6 (result V c) (fun t _ => flushed_eq V c t) cover

end Cert.Sage.Region1

end
-- ==== Proof.Rows.lean ====
/-
  A vector laid out as one row, or as one column, of a matrix: the two views under which the programs pass a bias,
  a per-column statistic, or the per-node counts to a matrix operation.
-/
import proofs.«152005_j30889404793605_1_alg».proof.Proof.Spec
import Idealize.ShloMosaic.Lib.ValueIdx
import Idealize.ShloMosaic.Lib.ValueLayout
import Idealize.ShloMosaic.Lib.Pipeline.Value

noncomputable section

namespace Cert.Sage

open Idealize.ShloMosaic Idealize.ShloMosaic.ValueIdx

variable {α : Type}

/-- A vector as the one row of a `1 × b` matrix. -/
def rowOf {b : Nat} (v : (⟨1, ![b]⟩ : Shape).Idx → α) : (Mat 1 b).Idx → α := fun y => v (ix1 (y 1))

/-- A vector as the one column of an `a × 1` matrix. -/
def colOf {a : Nat} (v : (⟨1, ![a]⟩ : Shape).Idx → α) : (Mat a 1).Idx → α := fun y => v (ix1 (y 0))

/-- The row view read at an entry: the vector at the entry's column. -/
theorem rowOf_ix2 {b : Nat} (v : (⟨1, ![b]⟩ : Shape).Idx → α) (u : Fin 1) (j : Fin b) : rowOf v (ix2 u j) = v (ix1 j) := rfl

/-- The column view read at an entry: the vector at the entry's row. -/
theorem colOf_ix2 {a : Nat} (v : (⟨1, ![a]⟩ : Shape).Idx → α) (i : Fin a) (u : Fin 1) : colOf v (ix2 i u) = v (ix1 i) := rfl

/-- Reshaping a vector to `1 × b` lays it out as the row. -/
theorem shapeCast_row {b : Nat} (v : (⟨1, ![b]⟩ : Shape).Idx → α) (h : (⟨1, ![b]⟩ : Shape).ShapeCasts (Mat 1 b)) :
    shapeCast (Mat 1 b) v h = rowOf v := by
  funext y
  obtain ⟨u, j, rfl⟩ : ∃ (u : Fin 1) (j : Fin b), y = ix2 u j := ⟨y 0, y 1, eq_ix2 y⟩
  exact shapeCast_a_1a_apply v h u j

/-- Reshaping a vector to `a × 1` lays it out as the column: entry `(i, 0)` is the `i`-th in row-major order of both. -/
theorem shapeCast_col {a : Nat} (v : (⟨1, ![a]⟩ : Shape).Idx → α) (h : (⟨1, ![a]⟩ : Shape).ShapeCasts (Mat a 1)) :
    shapeCast (Mat a 1) v h = colOf v := by
  funext y
  obtain ⟨i, u, rfl⟩ : ∃ (i : Fin a) (u : Fin 1), y = ix2 i u := ⟨y 0, y 1, eq_ix2 y⟩
  refine shapeCast_apply v h (ix2 i u) (ix1 i) ?_
  have hu : u.val = 0 := by omega
  rw [Shape.rowMajor_val_two, Shape.rowMajor_val_one]
  show i.val = i.val * 1 + u.val
  omega

end Cert.Sage

end
-- ==== Proof.RefIdx.lean ====
/-
  Where each operation of the reference program reads its operands, at entry `(r, j)` of its result: a product reads its
  left operand at the entry's row and the contracted coordinate and its right operand at the contracted coordinate and
  the entry's column; a vector broadcast along the rows is read at the entry's column; the counts broadcast along the
  columns are read at the entry's row.
-/
import proofs.«152005_j30889404793605_1_alg».proof.Proof.Gen.ReferenceIdeal.Read
import Idealize.ShloMosaic.Lib.ValueIdx

noncomputable section

namespace Cert.Sage.RefIdx

open Idealize.ShloMosaic Idealize.ShloMosaic.ValueIdx Cert.ReferenceIdeal Cert.ReferenceIdeal.Read

theorem l24 (r : Fin 100000) (j : Fin 128) (k : Fin 128) : lidx_main_v24 (ix2 r j) k = ix2 r k :=
  funext fun a => Fin.ext (by match a with | ⟨0, _⟩ => rfl | ⟨1, _⟩ => rfl)
theorem r24 (r : Fin 100000) (j : Fin 128) (k : Fin 128) : ridx_main_v24 (ix2 r j) k = ix2 k j :=
  funext fun a => Fin.ext (by match a with | ⟨0, _⟩ => rfl | ⟨1, _⟩ => rfl)
theorem l29 (r : Fin 100000) (j : Fin 128) (k : Fin 128) : lidx_main_v29 (ix2 r j) k = ix2 r k :=
  funext fun a => Fin.ext (by match a with | ⟨0, _⟩ => rfl | ⟨1, _⟩ => rfl)
theorem r29 (r : Fin 100000) (j : Fin 128) (k : Fin 128) : ridx_main_v29 (ix2 r j) k = ix2 k j :=
  funext fun a => Fin.ext (by match a with | ⟨0, _⟩ => rfl | ⟨1, _⟩ => rfl)
theorem i21 (r : Fin 100000) (k : Fin 128) : idx_main_v20 (idx_main_v21 (ix2 r k)) = ix1 r :=
  funext fun a => Fin.ext (by match a with | ⟨0, _⟩ => rfl)
theorem i26 (r : Fin 100000) (j : Fin 128) : idx_main_v25 (idx_main_v26 (ix2 r j)) = ix1 j :=
  funext fun a => Fin.ext (by match a with | ⟨0, _⟩ => rfl)
theorem i32 (r : Fin 100000) (j : Fin 128) : idx_main_v31 (idx_main_v32 (ix2 r j)) = ix1 j :=
  funext fun a => Fin.ext (by match a with | ⟨0, _⟩ => rfl)
theorem i38 (r : Fin 100000) (j : Fin 128) : idx_main_v37 (idx_main_v38 (ix2 r j)) = ix1 j :=
  funext fun a => Fin.ext (by match a with | ⟨0, _⟩ => rfl)
theorem i41 (r : Fin 100000) (j : Fin 128) : idx_main_v40 (idx_main_v41 (ix2 r j)) = ix1 j :=
  funext fun a => Fin.ext (by match a with | ⟨0, _⟩ => rfl)
theorem i44 (r : Fin 100000) (j : Fin 128) : idx_main_v43 (idx_main_v44 (ix2 r j)) = ix1 j :=
  funext fun a => Fin.ext (by match a with | ⟨0, _⟩ => rfl)
theorem l67 (r : Fin 100000) (j : Fin 64) (k : Fin 128) : lidx_main_v67 (ix2 r j) k = ix2 r k :=
  funext fun a => Fin.ext (by match a with | ⟨0, _⟩ => rfl | ⟨1, _⟩ => rfl)
theorem r67 (r : Fin 100000) (j : Fin 64) (k : Fin 128) : ridx_main_v67 (ix2 r j) k = ix2 k j :=
  funext fun a => Fin.ext (by match a with | ⟨0, _⟩ => rfl | ⟨1, _⟩ => rfl)
theorem l72 (r : Fin 100000) (j : Fin 64) (k : Fin 128) : lidx_main_v72 (ix2 r j) k = ix2 r k :=
  funext fun a => Fin.ext (by match a with | ⟨0, _⟩ => rfl | ⟨1, _⟩ => rfl)
theorem r72 (r : Fin 100000) (j : Fin 64) (k : Fin 128) : ridx_main_v72 (ix2 r j) k = ix2 k j :=
  funext fun a => Fin.ext (by match a with | ⟨0, _⟩ => rfl | ⟨1, _⟩ => rfl)
theorem i64 (r : Fin 100000) (k : Fin 128) : idx_main_v63 (idx_main_v64 (ix2 r k)) = ix1 r :=
  funext fun a => Fin.ext (by match a with | ⟨0, _⟩ => rfl)
theorem i69 (r : Fin 100000) (j : Fin 64) : idx_main_v68 (idx_main_v69 (ix2 r j)) = ix1 j :=
  funext fun a => Fin.ext (by match a with | ⟨0, _⟩ => rfl)

end Cert.Sage.RefIdx

end
-- ==== Proof.Ref.lean ====
/-
  The reference program's result, read one operation at a time.

  Read at entry `(r, j)`, the reference's hidden features are the first layer's entry of node `r`, column `j`, with the
  bias added before the node's own products; its result is the convolution's entry of the hidden features, again with
  the bias in the middle. The summed messages and the counts enter as the shared functions of the edge array; the
  transposed weight matrices enter as the reference's own transposes, unopened.
-/
import proofs.«152005_j30889404793605_1_alg».proof.Proof.Gen.ReferenceIdeal.Run
import proofs.«152005_j30889404793605_1_alg».proof.Proof.Gen.ReferenceIdeal.Read
import proofs.«152005_j30889404793605_1_alg».proof.Proof.Spec
import proofs.«152005_j30889404793605_1_alg».proof.Proof.Rows
import proofs.«152005_j30889404793605_1_alg».proof.Proof.Chain
import proofs.«152005_j30889404793605_1_alg».proof.Proof.RefIdx
import Idealize.ShloMosaic.PureOps.Ideal.Laws

noncomputable section

open scoped BigOperators

namespace Cert.Sage.Ref

open Idealize.ShloMosaic Idealize.ShloMosaic.ValueIdx Cert.ReferenceIdeal Cert.ReferenceIdeal.Read Cert.Sage.Chain Cert.Sage.RefIdx

/-! ## The hidden features

  The summed messages and the counts enter only as unopened functions of the edge array: every equation below holds
  for ANY function in their place, and is proved that way, with a variable standing for each. What is used of the
  float operations is only that on the extended reals each is the exact one: sum, difference, product, quotient,
  maximum, inverse square root. -/

/-- The clamped count of node `r`, as the reference's first layer forms it. -/
theorem clamp1 (x1 : (⟨S2x1600000, .i32⟩ : BufTy).Contents (Elt Ideal)) (r : Fin 100000) :
    val_main_v19 (F := Ideal) x1 (ix1 r) = max (cntOf x1 (ix1 r)) one := by
  have h : val_main_v17 (F := Ideal) x1 = cntOf x1 := rfl
  rw [val_main_v19_apply, val_main_v18_apply, h]
  generalize cntOf x1 (ix1 r) = a
  simp only [val_main_cst_3, constant_apply, Ideal.maximumf_def]

/-- The mean of node `r`'s messages at feature `k`, as the reference's first layer forms it. -/
theorem mean1 (x0 : (⟨S100000x128, .f32⟩ : BufTy).Contents (Elt Ideal)) (x1 : (⟨S2x1600000, .i32⟩ : BufTy).Contents (Elt Ideal)) (r : Fin 100000) (k : Fin 128) :
    val_main_v22 (F := Ideal) x0 x1 (ix2 r k) = Ideal.div (aggOf x0 x1 (ix2 r k)) (max (cntOf x1 (ix1 r)) one) := by
  rw [val_main_v22_apply, val_main_v21_apply, val_main_v20_apply, i21, clamp1, v13_eq]
  generalize aggOf x0 x1 (ix2 r k) = a
  generalize cntOf x1 (ix1 r) = cn
  exact Ideal.hostDivf_def _ _

/-- The first product of the first layer at `(r, j)`: the node's mean row against column `j`. -/
theorem dot1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (r : Fin 100000) (j : Fin 128) :
    ∑ k : Fin 128, val_main_v22 (F := Ideal) x0 x1 (lidx_main_v24 (ix2 r j) k) * val_main_v23 (F := Ideal) x2 (ridx_main_v24 (ix2 r j) k)
      = ∑ k : Fin 128, Ideal.div (aggOf x0 x1 (ix2 r k)) (max (cntOf x1 (ix1 r)) one) * val_main_v23 (F := Ideal) x2 (ix2 k j) :=
  Finset.sum_congr rfl fun k _ => by rw [l24, r24, mean1]

/-- The second product of the first layer at `(r, j)`: the node's own row against column `j`. -/
theorem dot2 (x0 : (⟨S100000x128, .f32⟩ : BufTy).Contents (Elt Ideal)) (x4 : (⟨S128x128, .f32⟩ : BufTy).Contents (Elt Ideal)) (r : Fin 100000) (j : Fin 128) :
    ∑ k : Fin 128, x0 (lidx_main_v29 (ix2 r j) k) * val_main_v28 (F := Ideal) x4 (ridx_main_v29 (ix2 r j) k)
      = ∑ k : Fin 128, x0 (ix2 r k) * val_main_v28 (F := Ideal) x4 (ix2 k j) :=
  Finset.sum_congr rfl fun k _ => by rw [l29, r29]

/-- The reference's hidden features at `(r, j)`. -/
theorem hidden_entry (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (r : Fin 100000) (j : Fin 128) :
    val_main_v46 (F := Ideal) x0 x1 x2 x3 x4 x5 x6 x7 x8 (ix2 r j)
      = normRelu (convRow' (fun k => x0 (ix2 r k)) (fun k => aggOf x0 x1 (ix2 r k)) (cntOf x1 (ix1 r))
            (val_main_v23 (F := Ideal) x2) (val_main_v28 (F := Ideal) x4) (rowOf x3) j)
          (x7 (ix1 j)) (x8 (ix1 j)) (x5 (ix1 j)) (x6 (ix1 j)) := by
  rw [val_main_v46_apply, val_main_v45_apply, val_main_v42_apply, val_main_v39_apply, val_main_v33_apply,
    val_main_v30_apply, val_main_v27_apply, val_main_v24_apply, val_main_v29_apply,
    val_main_v26_apply, val_main_v25_apply, val_main_v32_apply, val_main_v31_apply,
    val_main_v38_apply, val_main_v37_apply, val_main_v41_apply, val_main_v40_apply,
    val_main_v44_apply, val_main_v43_apply, val_main_call0_v0_apply,
    dot1, dot2, i26, i32, i38, i41, i44, val_main_v36_apply, val_main_v35_apply, val_main_v34_apply]
  generalize aggOf x0 x1 = A
  generalize cntOf x1 (ix1 r) = cn
  generalize val_main_v23 (F := Ideal) x2 = WL
  generalize val_main_v28 (F := Ideal) x4 = WR
  simp only [normRelu, convRow', rowOf_ix2, val_main_cst_4, val_main_call0_cst, constant_apply, Ideal.maximumf_def,
    Ideal.addf_def, Ideal.mulf_def, Ideal.subf_def, Ideal.hostUnary_rsqrt_def]

/-- The reference's hidden features as a whole array: the first layer of the arguments. -/
theorem hidden_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) :
    val_main_v46 (F := Ideal) x0 x1 x2 x3 x4 x5 x6 x7 x8
      = layer1 x0 (aggOf x0 x1) (colOf (cntOf x1)) (val_main_v23 (F := Ideal) x2) (val_main_v28 (F := Ideal) x4)
          (rowOf x3) (rowOf x5) (rowOf x6) (rowOf x7) (rowOf x8) := by
  funext i
  obtain ⟨r, j, rfl⟩ : ∃ (r : Fin 100000) (j : Fin 128), i = ix2 r j := ⟨i 0, i 1, eq_ix2 i⟩
  rw [hidden_entry, convRow'_eq]
  generalize aggOf x0 x1 = A
  generalize cntOf x1 = C
  generalize val_main_v23 (F := Ideal) x2 = WL
  generalize val_main_v28 (F := Ideal) x4 = WR
  simp only [layer1, conv, colOf_ix2, rowOf_ix2]

/-! ## The result -/

/-- The clamped count of node `r`, as the reference's second layer forms it: the same. -/
theorem clamp2 (x1 : (⟨S2x1600000, .i32⟩ : BufTy).Contents (Elt Ideal)) (r : Fin 100000) :
    val_main_v62 (F := Ideal) x1 (ix1 r) = max (cntOf x1 (ix1 r)) one := by
  rw [val_main_v62_apply, val_main_v61_apply, v60_eq]
  generalize cntOf x1 (ix1 r) = a
  simp only [val_main_cst_10, constant_apply, Ideal.maximumf_def]

/-- The mean of node `r`'s messages at feature `k`, as the reference's second layer forms it. -/
theorem mean2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (r : Fin 100000) (k : Fin 128) :
    val_main_v65 (F := Ideal) x0 x1 x2 x3 x4 x5 x6 x7 x8 (ix2 r k)
      = Ideal.div (aggOf (val_main_v46 (F := Ideal) x0 x1 x2 x3 x4 x5 x6 x7 x8) x1 (ix2 r k)) (max (cntOf x1 (ix1 r)) one) := by
  rw [val_main_v65_apply, val_main_v64_apply, val_main_v63_apply, i64, clamp2, v56_eq]
  generalize aggOf (val_main_v46 (F := Ideal) x0 x1 x2 x3 x4 x5 x6 x7 x8) x1 (ix2 r k) = a
  generalize cntOf x1 (ix1 r) = cn
  exact Ideal.hostDivf_def _ _

/-- The first product of the second layer at `(r, j)`. -/
theorem dot3 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S64x128, .f32⟩ : BufTy).Contents (Elt Ideal)) (r : Fin 100000) (j : Fin 64) :
    ∑ k : Fin 128, val_main_v65 (F := Ideal) x0 x1 x2 x3 x4 x5 x6 x7 x8 (lidx_main_v67 (ix2 r j) k) * val_main_v66 (F := Ideal) x9 (ridx_main_v67 (ix2 r j) k)
      = ∑ k : Fin 128, Ideal.div (aggOf (val_main_v46 (F := Ideal) x0 x1 x2 x3 x4 x5 x6 x7 x8) x1 (ix2 r k)) (max (cntOf x1 (ix1 r)) one) * val_main_v66 (F := Ideal) x9 (ix2 k j) :=
  Finset.sum_congr rfl fun k _ => by rw [l67, r67, mean2]

/-- The second product of the second layer at `(r, j)`. -/
theorem dot4 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x11 : (⟨S64x128, .f32⟩ : BufTy).Contents (Elt Ideal)) (r : Fin 100000) (j : Fin 64) :
    ∑ k : Fin 128, val_main_v46 (F := Ideal) x0 x1 x2 x3 x4 x5 x6 x7 x8 (lidx_main_v72 (ix2 r j) k) * val_main_v71 (F := Ideal) x11 (ridx_main_v72 (ix2 r j) k)
      = ∑ k : Fin 128, val_main_v46 (F := Ideal) x0 x1 x2 x3 x4 x5 x6 x7 x8 (ix2 r k) * val_main_v71 (F := Ideal) x11 (ix2 k j) :=
  Finset.sum_congr rfl fun k _ => by rw [l72, r72]

/-- The reference's result at `(r, j)`. -/
theorem out_entry (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S64x128, .f32⟩ : BufTy).Contents (Elt Ideal)) (x10 : (⟨S64, .f32⟩ : BufTy).Contents (Elt Ideal)) (x11 : (⟨S64x128, .f32⟩ : BufTy).Contents (Elt Ideal)) (r : Fin 100000) (j : Fin 64) :
    val_main_v73 (F := Ideal) x0 x1 x2 x3 x4 x5 x6 x7 x8 x9 x10 x11 (ix2 r j)
      = convRow' (fun k => val_main_v46 (F := Ideal) x0 x1 x2 x3 x4 x5 x6 x7 x8 (ix2 r k))
          (fun k => aggOf (val_main_v46 (F := Ideal) x0 x1 x2 x3 x4 x5 x6 x7 x8) x1 (ix2 r k)) (cntOf x1 (ix1 r))
          (val_main_v66 (F := Ideal) x9) (val_main_v71 (F := Ideal) x11) (rowOf x10) j := by
  rw [val_main_v73_apply, val_main_v70_apply, val_main_v67_apply, val_main_v72_apply, val_main_v69_apply, val_main_v68_apply,
    dot3, dot4, i69]
  generalize val_main_v46 (F := Ideal) x0 x1 x2 x3 x4 x5 x6 x7 x8 = H
  generalize aggOf H x1 = A
  generalize cntOf x1 (ix1 r) = cn
  generalize val_main_v66 (F := Ideal) x9 = WL
  generalize val_main_v71 (F := Ideal) x11 = WR
  simp only [convRow', rowOf_ix2, Ideal.addf_def]

/-- The reference's result as a whole array: the convolution of its hidden features. -/
theorem out_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S64x128, .f32⟩ : BufTy).Contents (Elt Ideal)) (x10 : (⟨S64, .f32⟩ : BufTy).Contents (Elt Ideal)) (x11 : (⟨S64x128, .f32⟩ : BufTy).Contents (Elt Ideal)) :
    val_main_v73 (F := Ideal) x0 x1 x2 x3 x4 x5 x6 x7 x8 x9 x10 x11
      = conv (val_main_v46 (F := Ideal) x0 x1 x2 x3 x4 x5 x6 x7 x8)
          (aggOf (val_main_v46 (F := Ideal) x0 x1 x2 x3 x4 x5 x6 x7 x8) x1) (colOf (cntOf x1))
          (val_main_v66 (F := Ideal) x9) (val_main_v71 (F := Ideal) x11) (rowOf x10) := by
  funext i
  obtain ⟨r, j, rfl⟩ : ∃ (r : Fin 100000) (j : Fin 64), i = ix2 r j := ⟨i 0, i 1, eq_ix2 i⟩
  rw [out_entry, convRow'_eq]
  generalize val_main_v46 (F := Ideal) x0 x1 x2 x3 x4 x5 x6 x7 x8 = H
  generalize aggOf H x1 = A
  generalize cntOf x1 = C
  generalize val_main_v66 (F := Ideal) x9 = WL
  generalize val_main_v71 (F := Ideal) x11 = WR
  simp only [conv, colOf_ix2]

end Cert.Sage.Ref

end
-- ==== Proof.KernelValue.lean ====
/-
  The kernel program's result as a function of the argument arrays.

  The result buffer is the second region's output array: the convolution of what that region found. What it found is,
  buffer by buffer, a named function of the arguments: the hidden features are the first region's output array, the
  first layer of what THAT region found; the summed messages are the shared function of the hidden features and the
  edge array; the counts, the transposed weights and the bias row come from the arguments directly. Put together, the
  result is the reference's own last stage applied to the same arguments.
-/
import proofs.«152005_j30889404793605_1_alg».proof.Proof.Gen.KernelIdeal.Frame
import proofs.«152005_j30889404793605_1_alg».proof.Proof.HostK
import proofs.«152005_j30889404793605_1_alg».proof.Proof.Region0
import proofs.«152005_j30889404793605_1_alg».proof.Proof.Region1
import proofs.«152005_j30889404793605_1_alg».proof.Proof.Rows
import proofs.«152005_j30889404793605_1_alg».proof.Proof.Ref

set_option maxRecDepth 16384

noncomputable section

namespace Cert.Sage.KernelValue

open Idealize.ShloMosaic Idealize.ShloMosaic.TcCoe Idealize.SL.Sem
open Cert.KernelIdeal Cert.KernelIdeal.Gen
open Cert.Sage.Chain Cert.Sage.HostK
open Cert.ReferenceIdeal.Read (val_main_v46 val_main_v73)

variable (m : (ℓ : Loc nD τ sig) → Buf (Elt Ideal) ℓ) (ρ : Dev nD → PrngReg)

/-- The first region's output array is the reference's hidden features of the same arguments. -/
theorem hidden_value (c : Dev nD) :
    (dat0 (V1 m ρ) c).arrAt 10 cfg0.N = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Region0.arr, Ref.hidden_eq]
  show layer1 (V1 m ρ c main_arg0) (V1 m ρ c main_v18) (V1 m ρ c main_v8) (V1 m ρ c main_v19) (V1 m ρ c main_v20)
      (V1 m ρ c main_v21) (V1 m ρ c main_v22) (V1 m ρ c main_v23) (V1 m ρ c main_v24) (V1 m ρ c main_v25) = _
  rw [feat_eq, agg_eq, cnt_eq, wl_eq, wr_eq, bias_eq, scale_eq, shift_eq, mean_eq, var_eq]
  simp only [shapeCast_col, shapeCast_row]

/-- The result buffer after the run is the reference's result of the same arguments. -/
theorem result_value (c : Dev nD) :
    W4 m ρ c (Proc.devRef .tc main_v40) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 6).trans ?_
  rw [Region1.arr, Ref.out_eq]
  show conv (V3 m ρ c main_v26) (V3 m ρ c main_v36) (V3 m ρ c main_v8) (V3 m ρ c main_v37) (V3 m ρ c main_v38)
      (V3 m ρ c main_v39) = _
  rw [hid_found, agg_found, cnt_found, wl_found, wr_found, bias_found, hid_out, cnt_kept, cnt_eq, hidden_value]
  simp only [shapeCast_col, shapeCast_row]

end Cert.Sage.KernelValue

end
-- ==== Proof.lean ====
/-
  Two graph convolutions with mean aggregation, a per-column normalisation with a cut-off at zero between them: the
  kernel program against the reference, on the extended reals.

  Both programs leave the irregular step — carrying each edge's source row to its destination and summing there, and
  counting the messages per node — to the same host operations; that step is carried as one unopened function of the
  node features and the edge array (Chain). What remains of a layer is dense and row-wise: divide a node's summed
  messages by its clamped count, meet that row and the node's own row with the two weight matrices, add the bias. The
  kernel program does this 4000 nodes at a time inside two pipelined regions and adds the bias last; the reference
  does it for all nodes at once and adds the bias in the middle. Addition of extended reals is commutative and
  associative without side condition, so the two orders agree at every input, and the claim never opens its
  precondition. Narrowing the products' operands to sixteen-bit floats is the identity on the extended reals.

  The kernel program's frames are the generated ones. Its value is read off the same run: the launch theorem called once
  more so that the post names the result buffer (KernelRun), each region's output array as a function of what the region
  found (Region0, Region1, over the bodies' stored values read at an entry: Pay), the host stretches' buffers as named
  functions of the arguments (HostK), and the whole brought to the reference's own stages (KernelValue). The reference's
  run and its stage-by-stage reading are the generated ones; Ref reads them at an entry.
-/
import proofs.«152005_j30889404793605_1_alg».proof.Defs
import proofs.«152005_j30889404793605_1_alg».proof.Proof.Gen.Kernel
import proofs.«152005_j30889404793605_1_alg».proof.Proof.Gen.Kernel.Skeleton
import proofs.«152005_j30889404793605_1_alg».proof.Proof.Gen.Kernel.Launch
import proofs.«152005_j30889404793605_1_alg».proof.Proof.Gen.Kernel.Points
import proofs.«152005_j30889404793605_1_alg».proof.Proof.Gen.Kernel.Frame
import proofs.«152005_j30889404793605_1_alg».proof.Proof.Gen.KernelIdeal
import proofs.«152005_j30889404793605_1_alg».proof.Proof.Gen.KernelIdeal.Skeleton
import proofs.«152005_j30889404793605_1_alg».proof.Proof.Gen.KernelIdeal.Launch
import proofs.«152005_j30889404793605_1_alg».proof.Proof.Gen.KernelIdeal.Points
import proofs.«152005_j30889404793605_1_alg».proof.Proof.Gen.KernelIdeal.Frame
import proofs.«152005_j30889404793605_1_alg».proof.Proof.Gen.ReferenceIdeal
import proofs.«152005_j30889404793605_1_alg».proof.Proof.Gen.ReferenceIdeal.Run
import proofs.«152005_j30889404793605_1_alg».proof.Proof.Gen.ReferenceIdeal.Read
import proofs.«152005_j30889404793605_1_alg».proof.Proof.Gen.Pre_finite_inputs
import proofs.«152005_j30889404793605_1_alg».proof.Proof.KernelRun
import proofs.«152005_j30889404793605_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealising pass rewrote nothing. -/
theorem preserves : Cert.preserves_Kernel_KernelIdeal := trivial

/-- From memories agreeing on the arguments both programs end with the reference's last stage of those arguments in
    their result buffers: the kernel program by its value (KernelValue), the reference by its run. -/
theorem algebraic : Cert.algebraic_KernelIdeal_ReferenceIdeal := by
  intro m ρ m' ρ' _ hagree
  refine ⟨fun c => Cert.ReferenceIdeal.Read.val_main_v73 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Sage.KernelValue.result_value m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v73_eq, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
